-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x5 : Shape := ⟨2, ![5, 5]⟩
abbrev S1000000x5x5 : Shape := ⟨3, ![1000000, 5, 5]⟩
abbrev S1000000x5x32 : Shape := ⟨3, ![1000000, 5, 32]⟩
abbrev S32x32 : Shape := ⟨2, ![32, 32]⟩
abbrev S32 : Shape := ⟨1, ![32]⟩
abbrev S_ : Shape := ⟨0, ![]⟩

class Facts : Prop where
  bcast_S_S5x5 : S_.BroadcastsInDim S5x5 (![] : Fin 0 → Fin S5x5.rank)
  reducesTo_S5x5_S_d0_1 : S5x5.ReducesTo [0, 1] S_
  h_S_ : 0 < S_.numel
  bcast_S_S1000000x5x5 : S_.BroadcastsInDim S1000000x5x5 (![] : Fin 0 → Fin S1000000x5x5.rank)
  reducesTo_S1000000x5x5_S_d0_1_2 : S1000000x5x5.ReducesTo [0, 1, 2] S_
  bcast_S_S1000000x5x32 : S_.BroadcastsInDim S1000000x5x32 (![] : Fin 0 → Fin S1000000x5x32.rank)
  reducesTo_S1000000x5x32_S_d0_1_2 : S1000000x5x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S5x5 .f32) (main_arg1 : FVec F S1000000x5x5 .f32) (main_arg2 : FVec F S1000000x5x32 .f32) (main_arg3 : FVec F S32x32 .f32) (main_arg4 : FVec F S32 .f32) : IVec S_ 1 :=
  let main_v0 : FVec F S5x5 .f32 := Host.absf main_arg0
  let main_cst : FVec F S_ .f32 := constant S_ .f32 0x7F800000#32
  let main_v1 : FVec F S5x5 .f32 := broadcastInDim S5x5 ![] bcast_S_S5x5 main_cst
  let main_v2 : IVec S5x5 1 := cmpf .olt main_v0 main_v1
  let main_c : IVec S_ 1 := constantI S_ 1 1#1
  let main_v3 : IVec S_ 1 := (fun x v => Host.reduce IntOp.andi x v reducesTo_S5x5_S_d0_1 h_S_) main_v2 main_c
  let main_v4 : FVec F S1000000x5x5 .f32 := Host.absf main_arg1
  let main_cst_0 : FVec F S_ .f32 := constant S_ .f32 0x7F800000#32
  let main_v5 : FVec F S1000000x5x5 .f32 := broadcastInDim S1000000x5x5 ![] bcast_S_S1000000x5x5 main_cst_0
  let main_v6 : IVec S1000000x5x5 1 := cmpf .olt main_v4 main_v5
  let main_c_1 : IVec S_ 1 := constantI S_ 1 1#1
  let main_v7 : IVec S_ 1 := (fun x v => Host.reduce IntOp.andi x v reducesTo_S1000000x5x5_S_d0_1_2 h_S_) main_v6 main_c_1
  let main_v8 : IVec S_ 1 := andi main_v3 main_v7
  let main_v9 : FVec F S1000000x5x32 .f32 := Host.absf main_arg2
  let main_cst_2 : FVec F S_ .f32 := constant S_ .f32 0x7F800000#32
  let main_v10 : FVec F S1000000x5x32 .f32 := broadcastInDim S1000000x5x32 ![] bcast_S_S1000000x5x32 main_cst_2
  let main_v11 : IVec S1000000x5x32 1 := cmpf .olt main_v9 main_v10
  let main_c_3 : IVec S_ 1 := constantI S_ 1 1#1
  let main_v12 : IVec S_ 1 := (fun x v => Host.reduce IntOp.andi x v reducesTo_S1000000x5x32_S_d0_1_2 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S5x5 : Shape := ⟨2, ![5, 5]⟩
abbrev S1000000x5x5 : Shape := ⟨3, ![1000000, 5, 5]⟩
abbrev S1000000x5x32 : Shape := ⟨3, ![1000000, 5, 32]⟩
abbrev S32x32 : Shape := ⟨2, ![32, 32]⟩
abbrev S32 : Shape := ⟨1, ![32]⟩
abbrev S1x25 : Shape := ⟨2, ![1, 25]⟩
abbrev S1000000x25 : Shape := ⟨2, ![1000000, 25]⟩
abbrev S1000000x160 : Shape := ⟨2, ![1000000, 160]⟩
abbrev S1x32 : Shape := ⟨2, ![1, 32]⟩
abbrev S4000x25 : Shape := ⟨2, ![4000, 25]⟩
abbrev S4000x160 : Shape := ⟨2, ![4000, 160]⟩
abbrev S4000x32 : Shape := ⟨2, ![4000, 32]⟩
abbrev S4000x1 : Shape := ⟨2, ![4000, 1]⟩
abbrev S1x1 : Shape := ⟨2, ![1, 1]⟩

abbrev nBuf : Space → Nat
  | .hbm => 12
  | .vmem => 9
  | .smem => 0
  | _ => 0

abbrev bufTy : (tb : Table) → Fin (tcTables nBuf tb) → BufTy
  | .hbm, ⟨0, _⟩ => ⟨S5x5, .f32⟩
  | .hbm, ⟨1, _⟩ => ⟨S1000000x5x5, .f32⟩
  | .hbm, ⟨2, _⟩ => ⟨S1000000x5x32, .f32⟩
  | .hbm, ⟨3, _⟩ => ⟨S32x32, .f32⟩
  | .hbm, ⟨4, _⟩ => ⟨S32, .f32⟩
  | .hbm, ⟨5, _⟩ => ⟨S1x25, .f32⟩
  | .hbm, ⟨6, _⟩ => ⟨S1000000x25, .f32⟩
  | .hbm, ⟨7, _⟩ => ⟨S1000000x160, .f32⟩
  | .hbm, ⟨8, _⟩ => ⟨S32x32, .f32⟩
  | .hbm, ⟨9, _⟩ => ⟨S1x32, .f32⟩
  | .hbm, ⟨10, _⟩ => ⟨S1000000x160, .f32⟩
  | .hbm, ⟨11, _⟩ => ⟨S1000000x5x32, .f32⟩
  | .local _ .vmem, ⟨0, _⟩ => ⟨S1x25, .f32⟩
  | .local _ .vmem, ⟨1, _⟩ => ⟨S32x32, .f32⟩
  | .local _ .vmem, ⟨2, _⟩ => ⟨S1x32, .f32⟩
  | .local _ .vmem, ⟨3, _⟩ => ⟨S4000x25, .f32⟩
  | .local _ .vmem, ⟨4, _⟩ => ⟨S4000x25, .f32⟩
  | .local _ .vmem, ⟨5, _⟩ => ⟨S4000x160, .f32⟩
  | .local _ .vmem, ⟨6, _⟩ => ⟨S4000x160, .f32⟩
  | .local _ .vmem, ⟨7, _⟩ => ⟨S4000x160, .f32⟩
  | .local _ .vmem, ⟨8, _⟩ => ⟨S4000x160, .f32⟩
  | _, _ => ⟨S5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S5x5_S1x25 : S5x5.ShapeCasts S1x25
  shapeCasts_S1000000x5x5_S1000000x25 : S1000000x5x5.ShapeCasts S1000000x25
  shapeCasts_S1000000x5x32_S1000000x160 : S1000000x5x32.ShapeCasts S1000000x160
  transposes_S32x32_S32x32_1_0 : S32x32.Transposes [1, 0] S32x32
  shapeCasts_S32_S1x32 : S32.ShapeCasts S1x32
  inb_S1x25_S1x25_0_0 : ∀ a, (![0, 0] : Fin 2 → Nat) a + S1x25.size a ≤ S1x25.size a
  h_S1x25 : 0 < S1x25.numel
  shapeCasts_S1x25_S1x25 : S1x25.ShapeCasts S1x25
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S4000x25_S4000x25_0_0 : ∀ a, (![0, 0] : Fin 2 → Nat) a + S4000x25.size a ≤ S4000x25.size a
  h_S4000x25 : 0 < S4000x25.numel
  shapeCasts_S4000x25_S4000x25 : S4000x25.ShapeCasts S4000x25
  inb_S4000x160_S4000x160_0_0 : ∀ a, (![0, 0] : Fin 2 → Nat) a + S4000x160.size a ≤ S4000x160.size a
  h_S4000x160 : 0 < S4000x160.numel
  shapeCasts_S4000x160_S4000x160 : S4000x160.ShapeCasts S4000x160
  slices_S4000x25_o0_0_S4000x1 : S4000x25.Slices ![0, 0] S4000x1
  slices_S1x25_o0_0_S1x1 : S1x25.Slices ![0, 0] S1x1
  broadcasts_S1x1_S4000x1 : S1x1.Broadcasts S4000x1
  slices_S4000x160_o0_0_S4000x32 : S4000x160.Slices ![0, 0] S4000x32
  broadcasts_S4000x1_S4000x32 : S4000x1.Broadcasts S4000x32
  slices_S4000x25_o0_1_S4000x1 : S4000x25.Slices ![0, 1] S4000x1
  slices_S1x25_o0_1_S1x1 : S1x25.Slices ![0, 1] S1x1
  slices_S4000x160_o0_32_S4000x32 : S4000x160.Slices ![0, 32] S4000x32
  slices_S4000x25_o0_2_S4000x1 : S4000x25.Slices ![0, 2] S4000x1
  slices_S1x25_o0_2_S1x1 : S1x25.Slices ![0, 2] S1x1
  slices_S4000x160_o0_64_S4000x32 : S4000x160.Slices ![0, 64] S4000x32
  slices_S4000x25_o0_3_S4000x1 : S4000x25.Slices ![0, 3] S4000x1
  slices_S1x25_o0_3_S1x1 : S1x25.Slices ![0, 3] S1x1
  slices_S4000x160_o0_96_S4000x32 : S4000x160.Slices ![0, 96] S4000x32
  slices_S4000x25_o0_4_S4000x1 : S4000x25.Slices ![0, 4] S4000x1
  slices_S1x25_o0_4_S1x1 : S1x25.Slices ![0, 4] S1x1
  slices_S4000x160_o0_128_S4000x32 : S4000x160.Slices ![0, 128] S4000x32
  broadcasts_S1x32_S4000x32 : S1x32.Broadcasts S4000x32
  inb_S4000x160_S4000x32_0_0 : ∀ a, (![0, 0] : Fin 2 → Nat) a + S4000x32.size a ≤ S4000x160.size a
  h_S4000x32 : 0 < S4000x32.numel
  slices_S4000x25_o0_5_S4000x1 : S4000x25.Slices ![0, 5] S4000x1
  slices_S1x25_o0_5_S1x1 : S1x25.Slices ![0, 5] S1x1
  slices_S4000x25_o0_6_S4000x1 : S4000x25.Slices ![0, 6] S4000x1
  slices_S1x25_o0_6_S1x1 : S1x25.Slices ![0, 6] S1x1
  slices_S4000x25_o0_7_S4000x1 : S4000x25.Slices ![0, 7] S4000x1
  slices_S1x25_o0_7_S1x1 : S1x25.Slices ![0, 7] S1x1
  slices_S4000x25_o0_8_S4000x1 : S4000x25.Slices ![0, 8] S4000x1
  slices_S1x25_o0_8_S1x1 : S1x25.Slices ![0, 8] S1x1
  slices_S4000x25_o0_9_S4000x1 : S4000x25.Slices ![0, 9] S4000x1
  slices_S1x25_o0_9_S1x1 : S1x25.Slices ![0, 9] S1x1
  inb_S4000x160_S4000x32_0_32 : ∀ a, (![0, 32] : Fin 2 → Nat) a + S4000x32.size a ≤ S4000x160.size a
  slices_S4000x25_o0_10_S4000x1 : S4000x25.Slices ![0, 10] S4000x1
  slices_S1x25_o0_10_S1x1 : S1x25.Slices ![0, 10] S1x1
  slices_S4000x25_o0_11_S4000x1 : S4000x25.Slices ![0, 11] S4000x1
  slices_S1x25_o0_11_S1x1 : S1x25.Slices ![0, 11] S1x1
  slices_S4000x25_o0_12_S4000x1 : S4000x25.Slices ![0, 12] S4000x1
  slices_S1x25_o0_12_S1x1 : S1x25.Slices ![0, 12] S1x1
  slices_S4000x25_o0_13_S4000x1 : S4000x25.Slices ![0, 13] S4000x1
  slices_S1x25_o0_13_S1x1 : S1x25.Slices ![0, 13] S1x1
  slices_S4000x25_o0_14_S4000x1 : S4000x25.Slices ![0, 14] S4000x1
  slices_S1x25_o0_14_S1x1 : S1x25.Slices ![0, 14] S1x1
  inb_S4000x160_S4000x32_0_64 : ∀ a, (![0, 64] : Fin 2 → Nat) a + S4000x32.size a ≤ S4000x160.size a
  slices_S4000x25_o0_15_S4000x1 : S4000x25.Slices ![0, 15] S4000x1
  slices_S1x25_o0_15_S1x1 : S1x25.Slices ![0, 15] S1x1
  slices_S4000x25_o0_16_S4000x1 : S4000x25.Slices ![0, 16] S4000x1
  slices_S1x25_o0_16_S1x1 : S1x25.Slices ![0, 16] S1x1
  slices_S4000x25_o0_17_S4000x1 : S4000x25.Slices ![0, 17] S4000x1
  slices_S1x25_o0_17_S1x1 : S1x25.Slices ![0, 17] S1x1
  slices_S4000x25_o0_18_S4000x1 : S4000x25.Slices ![0, 18] S4000x1
  slices_S1x25_o0_18_S1x1 : S1x25.Slices ![0, 18] S1x1
  slices_S4000x25_o0_19_S4000x1 : S4000x25.Slices ![0, 19] S4000x1
  slices_S1x25_o0_19_S1x1 : S1x25.Slices ![0, 19] S1x1
  inb_S4000x160_S4000x32_0_96 : ∀ a, (![0, 96] : Fin 2 → Nat) a + S4000x32.size a ≤ S4000x160.size a
  slices_S4000x25_o0_20_S4000x1 : S4000x25.Slices ![0, 20] S4000x1
  slices_S1x25_o0_20_S1x1 : S1x25.Slices ![0, 20] S1x1
  slices_S4000x25_o0_21_S4000x1 : S4000x25.Slices ![0, 21] S4000x1
  slices_S1x25_o0_21_S1x1 : S1x25.Slices ![0, 21] S1x1
  slices_S4000x25_o0_22_S4000x1 : S4000x25.Slices ![0, 22] S4000x1
  slices_S1x25_o0_22_S1x1 : S1x25.Slices ![0, 22] S1x1
  slices_S4000x25_o0_23_S4000x1 : S4000x25.Slices ![0, 23] S4000x1
  slices_S1x25_o0_23_S1x1 : S1x25.Slices ![0, 23] S1x1
  slices_S4000x25_o0_24_S4000x1 : S4000x25.Slices ![0, 24] S4000x1
  slices_S1x25_o0_24_S1x1 : S1x25.Slices ![0, 24] S1x1
  inb_S4000x160_S4000x32_0_128 : ∀ a, (![0, 128] : Fin 2 → Nat) a + S4000x32.size a ≤ S4000x160.size a
  shapeCasts_S1000000x160_S1000000x5x32 : S1000000x160.ShapeCasts S1000000x5x32
  dot_S4000x32_S32x32_S4000x32_1_0_0_1_n_n_wf : DotDims.WF S4000x32 S32x32 S4000x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x25.size a ≤ S1x25.size a
  hwx0_0 : ∀ i : grid0.Coords, EltTy.bits .f32 = 32 ∨ (Rect.block (s := S1x25) S1x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x25.size a ≤ S1000000x25.size a
  hwx0_3 : ∀ i : grid0.Coords, EltTy.bits .f32 = 32 ∨ (Rect.block (s := S1000000x25) S4000x25.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x160.size a ≤ S1000000x160.size a
  hwx0_4 : ∀ i : grid0.Coords, EltTy.bits .f32 = 32 ∨ (Rect.block (s := S1000000x160) S4000x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x160.size a ≤ S1000000x160.size a
  hwx0_5 : ∀ i : grid0.Coords, EltTy.bits .f32 = 32 ∨ (Rect.block (s := S1000000x160) S4000x160.size (cc0_transform_5 i) (hinb0_5 i)).WholeWords (EltTy.packing .f32)

variable [Facts₀]

def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf

abbrev win0_0 : Pipeline.Window sig grid0 :=
  Pipeline.Window.ofSpec (Memref.whole main_v0) S1x25.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x25.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4000x160.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4000x160.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S5x5 : Shape := ⟨2, ![5, 5]⟩
abbrev S1000000x5x5 : Shape := ⟨3, ![1000000, 5, 5]⟩
abbrev S1000000x5x32 : Shape := ⟨3, ![1000000, 5, 32]⟩
abbrev S32x32 : Shape := ⟨2, ![32, 32]⟩
abbrev S32 : Shape := ⟨1, ![32]⟩
abbrev S1x5x5 : Shape := ⟨3, ![1, 5, 5]⟩
abbrev S1x1x32 : Shape := ⟨3, ![1, 1, 32]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S5x5, .f32⟩
  | .hbm, ⟨1, _⟩ => ⟨S1000000x5x5, .f32⟩
  | .hbm, ⟨2, _⟩ => ⟨S1000000x5x32, .f32⟩
  | .hbm, ⟨3, _⟩ => ⟨S32x32, .f32⟩
  | .hbm, ⟨4, _⟩ => ⟨S32, .f32⟩
  | .hbm, ⟨5, _⟩ => ⟨S1x5x5, .f32⟩
  | .hbm, ⟨6, _⟩ => ⟨S1000000x5x5, .f32⟩
  | .hbm, ⟨7, _⟩ => ⟨S1000000x5x5, .f32⟩
  | .hbm, ⟨8, _⟩ => ⟨S1000000x5x32, .f32⟩
  | .hbm, ⟨9, _⟩ => ⟨S1000000x5x32, .f32⟩
  | .hbm, ⟨10, _⟩ => ⟨S1x1x32, .f32⟩
  | .hbm, ⟨11, _⟩ => ⟨S1000000x5x32, .f32⟩
  | .hbm, ⟨12, _⟩ => ⟨S1000000x5x32, .f32⟩
  | .hbm, ⟨13, _⟩ => ⟨S_, .f32⟩
  | .hbm, ⟨14, _⟩ => ⟨S1000000x5x32, .f32⟩
  | .hbm, ⟨15, _⟩ => ⟨S1000000x5x32, .f32⟩
  | _, _ => ⟨S5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S5x5_S1x5x5_1_2 : S5x5.BroadcastsInDim S1x5x5 (![1, 2] : Fin 2 → Fin S1x5x5.rank)
  bcast_S1x5x5_S1000000x5x5_0_1_2 : S1x5x5.BroadcastsInDim S1000000x5x5 (![0, 1, 2] : Fin 3 → Fin S1000000x5x5.rank)
  bcast_S32_S1x1x32_2 : S32.BroadcastsInDim S1x1x32 (![2] : Fin 1 → Fin S1x1x32.rank)
  bcast_S1x1x32_S1000000x5x32_0_1_2 : S1x1x32.BroadcastsInDim S1000000x5x32 (![0, 1, 2] : Fin 3 → Fin S1000000x5x32.rank)
  bcast_S_S1000000x5x32 : S_.BroadcastsInDim S1000000x5x32 (![] : Fin 0 → Fin S1000000x5x32.rank)
  dot_S1000000x5x5_S1000000x5x32_S1000000x5x32_2_1_1_2_0_0_wf : DotDims.WF S1000000x5x5 S1000000x5x32 S1000000x5x32 [2] [1] [1] [2] [0] [0]
  dot_S1000000x5x32_S32x32_S1000000x5x32_2_1_01_0_n_n_wf : DotDims.WF S1000000x5x32 S32x32 S1000000x5x32 [2] [1] [0, 1] [0] [] []

variable [Facts₀]

def dot_S1000000x5x5_S1000000x5x32_S1000000x5x32_2_1_1_2_0_0 : DotDims S1000000x5x5 S1000000x5x32 S1000000x5x32 where
  lhsContracting := [2]
  rhsContracting := [1]
  lhsNonContracting := [1]
  rhsNonContracting := [2]
  lhsBatch := [0]
  rhsBatch := [0]
  wf := dot_S1000000x5x5_S1000000x5x32_S1000000x5x32_2_1_1_2_0_0_wf
def dot_S1000000x5x32_S32x32_S1000000x5x32_2_1_01_0_n_n : DotDims S1000000x5x32 S32x32 S1000000x5x32 where
  lhsContracting := [2]
  rhsContracting := [1]
  lhsNonContracting := [0, 1]
  rhsNonContracting := [0]
  lhsBatch := []
  rhsBatch := []
  wf := dot_S1000000x5x32_S32x32_S1000000x5x32_2_1_01_0_n_n_wf

class Facts : Prop extends Facts₀ where

variable [Facts]
-- ==== Proof.Spec.lean ====
/-
  One region's row of the weighted state aggregation followed by a linear layer and a rectifier, as a function of the
  row's 25 region weights, its 160 state features, the 25 shared weights, the 32 × 32 layer matrix and its bias:

    out i o = max (Σ_c (Σ_j (ap (5 i + j) · a (5 i + j)) · x (32 j + c)) · w c o + b o) 0,

  i one of the five states, o one of the 32 output channels. Everything is over the extended reals; the sums are
  finite sums in a commutative monoid, the products are only ever commuted, so no law used here needs finiteness.
  The same row function serves the 4000-row block one grid point handles and the whole million-row array.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- Position of weight (i, j) in a row of the flattened 5 × 5 weights. -/
def k25 (i j : Fin 5) : Fin 25 := ⟨5 * i.val + j.val, by omega⟩
/-- Position of feature (j, c) in a row of the flattened 5 × 32 features. -/
def k160 (j : Fin 5) (c : Fin 32) : Fin 160 := ⟨32 * j.val + c.val, by omega⟩

/-- The aggregated feature c of state i: Σ_j (ap (5 i + j) · a (5 i + j)) · x (32 j + c). -/
def agg (a ap : Fin 25 → EReal) (x : Fin 160 → EReal) (i : Fin 5) (c : Fin 32) : EReal :=
  ∑ j : Fin 5, (ap (k25 i j) * a (k25 i j)) * x (k160 j c)

/-- Channel o of state i of one row: the aggregated features through the layer `w` (rows: input channel), plus the bias,
    rectified. -/
def rowOut (a : Fin 25 → EReal) (w : Fin 32 → Fin 32 → EReal) (b : Fin 32 → EReal) (ap : Fin 25 → EReal)
    (x : Fin 160 → EReal) (i : Fin 5) (o : Fin 32) : EReal :=
  max ((∑ c : Fin 32, agg a ap x i c * w c o) + b o) 0

/-- The aggregation written out as the kernel accumulates it: from zero, the five products added one after another. -/
theorem agg_eq_fold (a ap : Fin 25 → EReal) (x : Fin 160 → EReal) (i : Fin 5) (c : Fin 32) :
    agg a ap x i c
      = ((((0 + (ap (k25 i 0) * a (k25 i 0)) * x (k160 0 c)) + (ap (k25 i 1) * a (k25 i 1)) * x (k160 1 c))
          + (ap (k25 i 2) * a (k25 i 2)) * x (k160 2 c)) + (ap (k25 i 3) * a (k25 i 3)) * x (k160 3 c))
          + (ap (k25 i 4) * a (k25 i 4)) * x (k160 4 c) := by
  unfold agg
  rw [Fin.sum_univ_five, zero_add]

/-- The row function laid over an R-row pair of flattened arrays (region weights R × 25, features R × 160): entry
    (r, 32 i + o) of the R × 160 result is the row function of row r at state i and channel o. The shared weights are a
    1 × 25 row, the layer matrix 32 × 32 (rows: input channel), the bias a 1 × 32 row. -/
def rowsOut (R : ℕ) (a : (⟨2, ![1, 25]⟩ : Shape).Idx → EReal) (w : (⟨2, ![32, 32]⟩ : Shape).Idx → EReal)
    (b : (⟨2, ![1, 32]⟩ : Shape).Idx → EReal) (ap : (⟨2, ![R, 25]⟩ : Shape).Idx → EReal)
    (x : (⟨2, ![R, 160]⟩ : Shape).Idx → EReal) : (⟨2, ![R, 160]⟩ : Shape).Idx → EReal := fun y =>
  rowOut (fun k => a (ix2 (0 : Fin 1) k)) (fun c o => w (ix2 c o)) (fun o => b (ix2 (0 : Fin 1) o))
    (fun k => ap (ix2 (⟨(y 0).val, (y 0).isLt⟩ : Fin R) k)) (fun q => x (ix2 (⟨(y 0).val, (y 0).isLt⟩ : Fin R) q))
    ⟨(y 1).val / 32, by have h : (y 1).val < 160 := (y 1).isLt; omega⟩ ⟨(y 1).val % 32, Nat.mod_lt _ (by decide)⟩

/-- `rowsOut` at the entry in row r and column 32 i + o. -/
theorem rowsOut_at (R : ℕ) (a : (⟨2, ![1, 25]⟩ : Shape).Idx → EReal) (w : (⟨2, ![32, 32]⟩ : Shape).Idx → EReal)
    (b : (⟨2, ![1, 32]⟩ : Shape).Idx → EReal) (ap : (⟨2, ![R, 25]⟩ : Shape).Idx → EReal)
    (x : (⟨2, ![R, 160]⟩ : Shape).Idx → EReal) (y : (⟨2, ![R, 160]⟩ : Shape).Idx) (i : Fin 5) (r : Fin R) (o : Fin 32)
    (h0 : (y 0).val = r.val) (h1 : (y 1).val = 32 * i.val + o.val) :
    rowsOut R a w b ap x y
      = rowOut (fun k => a (ix2 (0 : Fin 1) k)) (fun c o => w (ix2 c o)) (fun o => b (ix2 (0 : Fin 1) o))
          (fun k => ap (ix2 r k)) (fun q => x (ix2 r q)) i o := by
  have er : (⟨(y 0).val, (y 0).isLt⟩ : Fin R) = r := Fin.ext h0
  have ei : (⟨(y 1).val / 32, by have h : (y 1).val < 160 := (y 1).isLt; omega⟩ : Fin 5) = i :=
    Fin.ext (by show (y 1).val / 32 = i.val; have := o.isLt; omega)
  have eo : (⟨(y 1).val % 32, Nat.mod_lt _ (by decide)⟩ : Fin 32) = o :=
    Fin.ext (by show (y 1).val % 32 = o.val; have := o.isLt; omega)
  unfold rowsOut
  rw [er, ei, eo]

/-- The whole result over the original arrays: entry (n, i, o) is
    max (Σ_c (Σ_j (A i j · Ap n i j) · X n j c) · W o c + B o) 0. -/
def out3 (A : (⟨2, ![5, 5]⟩ : Shape).Idx → EReal) (Ap : (⟨3, ![1000000, 5, 5]⟩ : Shape).Idx → EReal)
    (X : (⟨3, ![1000000, 5, 32]⟩ : Shape).Idx → EReal) (W : (⟨2, ![32, 32]⟩ : Shape).Idx → EReal)
    (B : (⟨1, ![32]⟩ : Shape).Idx → EReal) : (⟨3, ![1000000, 5, 32]⟩ : Shape).Idx → EReal := fun y =>
  max ((∑ c : Fin 32, (∑ j : Fin 5, (A (ix2 (y 1) j) * Ap (ix3 (y 0) (y 1) j)) * X (ix3 (y 0) j c)) * W (ix2 (y 2) c))
    + B (ix1 (y 2))) 0

/-- The row function, fed a row of the flattened arrays, is the entry of `out3`: the flattened positions 5 i + j and
    32 j + c are the coordinates (i, j) and (j, c), the layer is used transposed, and the two weights commute. -/
theorem rowOut_eq_out3 (A : (⟨2, ![5, 5]⟩ : Shape).Idx → EReal) (Ap : (⟨3, ![1000000, 5, 5]⟩ : Shape).Idx → EReal)
    (X : (⟨3, ![1000000, 5, 32]⟩ : Shape).Idx → EReal) (W : (⟨2, ![32, 32]⟩ : Shape).Idx → EReal)
    (B : (⟨1, ![32]⟩ : Shape).Idx → EReal)
    (a ap : Fin 25 → EReal) (x : Fin 160 → EReal) (w : Fin 32 → Fin 32 → EReal) (b : Fin 32 → EReal)
    (n : Fin 1000000) (i : Fin 5) (o : Fin 32)
    (ha : ∀ i j : Fin 5, a (k25 i j) = A (ix2 i j))
    (hap : ∀ i j : Fin 5, ap (k25 i j) = Ap (ix3 n i j))
    (hx : ∀ (j : Fin 5) (c : Fin 32), x (k160 j c) = X (ix3 n j c))
    (hw : ∀ c o : Fin 32, w c o = W (ix2 o c))
    (hb : ∀ o : Fin 32, b o = B (ix1 o)) :
    rowOut a w b ap x i o = out3 A Ap X W B (ix3 n i o) := by
  unfold rowOut out3 agg
  simp only [ha, hap, hx, hw, hb]
  show max ((∑ c : Fin 32, (∑ j : Fin 5, (Ap (ix3 n i j) * A (ix2 i j)) * X (ix3 n j c)) * W (ix2 o c)) + B (ix1 o)) 0
    = max ((∑ c : Fin 32, (∑ j : Fin 5, (A (ix2 i j) * Ap (ix3 n i j)) * X (ix3 n j c)) * W (ix2 o c)) + B (ix1 o)) 0
  simp only [mul_comm (Ap _) (A _)]

end Cert.Spec

end
-- ==== Proof.Payload.lean ====
/-
  What the kernel body stores, read at an entry. The body's five stores fill the five 32-wide column bands of the
  4000 × 160 output block; band i holds, at row r and column o, the row function of `Spec.lean` at state i and channel o,
  fed row r of the region-weight block and of the feature block, the shared weights, the layer matrix and the bias.
  Each band's value is a chain of column slices, broadcasts of a column or a row, products and sums, one matrix product
  into a zero accumulator (at the ideal values: the plain sum over the 32 input channels; the narrowing to bf16 in front
  of it is the identity), the bias added and the maximum with zero.
-/
import proofs.«171869_j35777077576087_1_alg».proof.Proof.Gen.KernelIdeal.Frame
import proofs.«171869_j35777077576087_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec

/-! ## The layout operations of the body, read at an entry -/

/-- A column broadcast along the rows of a wider matrix reads, at (r, o), the column at row r. -/
theorem bcast_col_apply {a b : ℕ} (v : (⟨2, ![a, 1]⟩ : Shape).Idx → EReal) (h : (⟨2, ![a, 1]⟩ : Shape).Broadcasts ⟨2, ![a, b]⟩)
    (r : Fin a) (o : Fin b) : broadcastTo ⟨2, ![a, b]⟩ v h (ix2 r o) = v (ix2 r (0 : Fin 1)) := by
  refine broadcastTo_apply v h (ix2 r o) (ix2 r (0 : Fin 1)) fun ax => ?_
  match ax with
  | ⟨0, _⟩ =>
    show r.val = if a = 1 then 0 else r.val
    split
    · have := r.isLt; omega
    · rfl
  | ⟨1, _⟩ => rfl

/-- Column k of the 4000-row weight block, as a column. -/
theorem col25_apply (v : FVec Ideal S4000x25 .f32) (k : ℕ) (h : S4000x25.Slices ![0, k] S4000x1) (r : Fin 4000) (hk : k < 25) :
    extractStridedSlice S4000x1 ![0, k] v h (ix2 r (0 : Fin 1)) = v (ix2 r ⟨k, hk⟩) :=
  slice2_axis1_apply k v h r (0 : Fin 1) ⟨k, hk⟩ rfl

/-- Entry k of the shared weights' one row, as a 1 × 1 matrix. -/
theorem one25_apply (v : FVec Ideal S1x25 .f32) (k : ℕ) (h : S1x25.Slices ![0, k] S1x1) (hk : k < 25) :
    extractStridedSlice S1x1 ![0, k] v h (ix2 (0 : Fin 1) (0 : Fin 1)) = v (ix2 (0 : Fin 1) ⟨k, hk⟩) :=
  slice2_axis1_apply k v h (0 : Fin 1) (0 : Fin 1) ⟨k, hk⟩ rfl

/-- The 32 columns from column q of the feature block. -/
theorem band160_apply (v : FVec Ideal S4000x160 .f32) (q : ℕ) (h : S4000x160.Slices ![0, q] S4000x32) (r : Fin 4000) (c : Fin 32)
    (hq : q + c.val < 160) :
    extractStridedSlice S4000x32 ![0, q] v h (ix2 r c) = v (ix2 r ⟨q + c.val, hq⟩) :=
  slice2_axis1_apply q v h r c ⟨q + c.val, hq⟩ rfl

/-- One weight column of the body: column k of the weight block times entry k of the shared weights, along the rows. -/
theorem wcol_apply (v8 : FVec Ideal S4000x25 .f32) (v1 : FVec Ideal S1x25 .f32) (k : ℕ) (h8 : S4000x25.Slices ![0, k] S4000x1)
    (h1 : S1x25.Slices ![0, k] S1x1) (hb : S1x1.Broadcasts S4000x1) (r : Fin 4000) (hk : k < 25) :
    mulf (extractStridedSlice S4000x1 ![0, k] v8 h8) (broadcastTo S4000x1 (extractStridedSlice S1x1 ![0, k] v1 h1) hb) (ix2 r (0 : Fin 1))
      = v8 (ix2 r ⟨k, hk⟩) * v1 (ix2 (0 : Fin 1) ⟨k, hk⟩) := by
  rw [mulf_apply, col25_apply v8 k h8 r hk, broadcastTo_1b_ab_apply, one25_apply v1 k h1 hk]

/-- One term of the aggregation: the weight column broadcast over a band of the features, times the band. -/
theorem term_apply (v8 : FVec Ideal S4000x25 .f32) (v1 : FVec Ideal S1x25 .f32) (v10 : FVec Ideal S4000x160 .f32) (k q : ℕ)
    (h8 : S4000x25.Slices ![0, k] S4000x1) (h1 : S1x25.Slices ![0, k] S1x1) (hb : S1x1.Broadcasts S4000x1)
    (hc : S4000x1.Broadcasts S4000x32) (h10 : S4000x160.Slices ![0, q] S4000x32) (r : Fin 4000) (c : Fin 32) (hk : k < 25)
    (hq : q + 32 ≤ 160) :
    mulf (broadcastTo S4000x32 (mulf (extractStridedSlice S4000x1 ![0, k] v8 h8)
        (broadcastTo S4000x1 (extractStridedSlice S1x1 ![0, k] v1 h1) hb)) hc) (extractStridedSlice S4000x32 ![0, q] v10 h10) (ix2 r c)
      = (v8 (ix2 r ⟨k, hk⟩) * v1 (ix2 (0 : Fin 1) ⟨k, hk⟩)) * v10 (ix2 r ⟨q + c.val, by have := c.isLt; omega⟩) := by
  rw [mulf_apply, bcast_col_apply, wcol_apply v8 v1 k h8 h1 hb r hk, band160_apply v10 q h10 r c (by have := c.isLt; omega)]

/-! ## The matrix product -/

theorem lhs_mm_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem lhs_mm_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
theorem rhs_mm_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
theorem rhs_mm_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The body's matrix product into a zero accumulator, at (r, o): the sum over the 32 input channels of the left
    operand's row r times the right operand's column o. -/
theorem mm_apply (l : FVec Ideal S4000x32 .bf16) (w : FVec Ideal S32x32 .bf16) (r : Fin 4000) (o : Fin 32) :
    matmul dot_S4000x32_S32x32_S4000x32_1_0_0_1_n_n none l w (constant S4000x32 .f32 0x00000000#32) (ix2 r o)
      = ∑ c : Fin 32, l (ix2 r c) * w (ix2 c o) := by
  simp only [matmul]
  rw [Ideal.matmul_constant_zero_apply, ← Equiv.sum_comp (ValueIdx.contrEquiv1 dot_S4000x32_S32x32_S4000x32_1_0_0_1_n_n 32 rfl rfl).symm]
  refine Finset.sum_congr rfl fun k _ => ?_
  have hk := ValueIdx.contrEquiv1_symm_val dot_S4000x32_S32x32_S4000x32_1_0_0_1_n_n 32 rfl rfl k
  have el : dot_S4000x32_S32x32_S4000x32_1_0_0_1_n_n.lhsIdx (ix2 r o) ((ValueIdx.contrEquiv1 dot_S4000x32_S32x32_S4000x32_1_0_0_1_n_n 32 rfl rfl).symm k) = ix2 r k := funext fun a => Fin.ext (by
    match a with
    | ⟨0, _⟩ => exact lhs_mm_0 _ _
    | ⟨1, _⟩ => exact (lhs_mm_1 _ _).trans hk)
  have er : dot_S4000x32_S32x32_S4000x32_1_0_0_1_n_n.rhsIdx (ix2 r o) ((ValueIdx.contrEquiv1 dot_S4000x32_S32x32_S4000x32_1_0_0_1_n_n 32 rfl rfl).symm k) = ix2 k o := funext fun a => Fin.ext (by
    match a with
    | ⟨0, _⟩ => exact (rhs_mm_0 _ _).trans hk
    | ⟨1, _⟩ => exact rhs_mm_1 _ _)
  rw [el, er]

/-! ## One band -/

/-- A band of the body's result at (r, o), for any five weight positions k₀ … k₄ and feature offsets q₀ … q₄: the five
    terms added from zero, the sum narrowed (the identity here), multiplied into the layer matrix, the bias row added,
    the maximum with zero taken. -/
theorem band_apply (z z' : Ideal .f32) (hz : z = 0) (hz' : z' = 0)
    (v1 : FVec Ideal S1x25 .f32) (v4 : FVec Ideal S32x32 .bf16) (v6 : FVec Ideal S1x32 .f32) (v8 : FVec Ideal S4000x25 .f32)
    (v10 : FVec Ideal S4000x160 .f32) (k0 k1 k2 k3 k4 q0 q1 q2 q3 q4 : ℕ)
    (a0 : S4000x25.Slices ![0, k0] S4000x1) (a1 : S4000x25.Slices ![0, k1] S4000x1) (a2 : S4000x25.Slices ![0, k2] S4000x1)
    (a3 : S4000x25.Slices ![0, k3] S4000x1) (a4 : S4000x25.Slices ![0, k4] S4000x1)
    (b0 : S1x25.Slices ![0, k0] S1x1) (b1 : S1x25.Slices ![0, k1] S1x1) (b2 : S1x25.Slices ![0, k2] S1x1)
    (b3 : S1x25.Slices ![0, k3] S1x1) (b4 : S1x25.Slices ![0, k4] S1x1)
    (c0 : S4000x160.Slices ![0, q0] S4000x32) (c1 : S4000x160.Slices ![0, q1] S4000x32) (c2 : S4000x160.Slices ![0, q2] S4000x32)
    (c3 : S4000x160.Slices ![0, q3] S4000x32) (c4 : S4000x160.Slices ![0, q4] S4000x32)
    (hb : S1x1.Broadcasts S4000x1) (hc : S4000x1.Broadcasts S4000x32) (hr : S1x32.Broadcasts S4000x32) (ht : FTy.bf16.bits < FTy.f32.bits)
    (r : Fin 4000) (o : Fin 32)
    (hk0 : k0 < 25) (hk1 : k1 < 25) (hk2 : k2 < 25) (hk3 : k3 < 25) (hk4 : k4 < 25)
    (hq0 : q0 + 32 ≤ 160) (hq1 : q1 + 32 ≤ 160) (hq2 : q2 + 32 ≤ 160) (hq3 : q3 + 32 ≤ 160) (hq4 : q4 + 32 ≤ 160) :
    maximumf (addf (matmul dot_S4000x32_S32x32_S4000x32_1_0_0_1_n_n none
        (truncf .bf16 (addf (addf (addf (addf (addf (broadcast S4000x32 z)
          (mulf (broadcastTo S4000x32 (mulf (extractStridedSlice S4000x1 ![0, k0] v8 a0) (broadcastTo S4000x1 (extractStridedSlice S1x1 ![0, k0] v1 b0) hb)) hc) (extractStridedSlice S4000x32 ![0, q0] v10 c0)))
          (mulf (broadcastTo S4000x32 (mulf (extractStridedSlice S4000x1 ![0, k1] v8 a1) (broadcastTo S4000x1 (extractStridedSlice S1x1 ![0, k1] v1 b1) hb)) hc) (extractStridedSlice S4000x32 ![0, q1] v10 c1)))
          (mulf (broadcastTo S4000x32 (mulf (extractStridedSlice S4000x1 ![0, k2] v8 a2) (broadcastTo S4000x1 (extractStridedSlice S1x1 ![0, k2] v1 b2) hb)) hc) (extractStridedSlice S4000x32 ![0, q2] v10 c2)))
          (mulf (broadcastTo S4000x32 (mulf (extractStridedSlice S4000x1 ![0, k3] v8 a3) (broadcastTo S4000x1 (extractStridedSlice S1x1 ![0, k3] v1 b3) hb)) hc) (extractStridedSlice S4000x32 ![0, q3] v10 c3)))
          (mulf (broadcastTo S4000x32 (mulf (extractStridedSlice S4000x1 ![0, k4] v8 a4) (broadcastTo S4000x1 (extractStridedSlice S1x1 ![0, k4] v1 b4) hb)) hc) (extractStridedSlice S4000x32 ![0, q4] v10 c4))) ht)
        v4 (constant S4000x32 .f32 0x00000000#32)) (broadcastTo S4000x32 v6 hr)) (broadcast S4000x32 z') (ix2 r o)
      = max ((∑ c : Fin 32,
          (((((0 + (v8 (ix2 r ⟨k0, hk0⟩) * v1 (ix2 (0 : Fin 1) ⟨k0, hk0⟩)) * v10 (ix2 r ⟨q0 + c.val, by have := c.isLt; omega⟩))
            + (v8 (ix2 r ⟨k1, hk1⟩) * v1 (ix2 (0 : Fin 1) ⟨k1, hk1⟩)) * v10 (ix2 r ⟨q1 + c.val, by have := c.isLt; omega⟩))
            + (v8 (ix2 r ⟨k2, hk2⟩) * v1 (ix2 (0 : Fin 1) ⟨k2, hk2⟩)) * v10 (ix2 r ⟨q2 + c.val, by have := c.isLt; omega⟩))
            + (v8 (ix2 r ⟨k3, hk3⟩) * v1 (ix2 (0 : Fin 1) ⟨k3, hk3⟩)) * v10 (ix2 r ⟨q3 + c.val, by have := c.isLt; omega⟩))
            + (v8 (ix2 r ⟨k4, hk4⟩) * v1 (ix2 (0 : Fin 1) ⟨k4, hk4⟩)) * v10 (ix2 r ⟨q4 + c.val, by have := c.isLt; omega⟩))
          * v4 (ix2 c o)) + v6 (ix2 (0 : Fin 1) o)) 0 := by
  rw [maximumf_apply, addf_apply, broadcast_apply, broadcastTo_1b_ab_apply, mm_apply, hz']
  refine congrArg (fun s => max (s + v6 (ix2 (0 : Fin 1) o)) 0) (Finset.sum_congr rfl fun c _ => congrArg (· * v4 (ix2 c o)) ?_)
  rw [truncf_apply, addf_apply, addf_apply, addf_apply, addf_apply, addf_apply, broadcast_apply, hz,
    term_apply v8 v1 v10 k0 q0 a0 b0 hb hc c0 r c hk0 hq0, term_apply v8 v1 v10 k1 q1 a1 b1 hb hc c1 r c hk1 hq1,
    term_apply v8 v1 v10 k2 q2 a2 b2 hb hc c2 r c hk2 hq2, term_apply v8 v1 v10 k3 q3 a3 b3 hb hc c3 r c hk3 hq3,
    term_apply v8 v1 v10 k4 q4 a4 b4 hb hc c4 r c hk4 hq4]

/-! ## The five bands of the block -/

theorem band0 (x0 : Vec Ideal S1x25 .f32) (x1 : Vec Ideal S32x32 .f32) (x2 : Vec Ideal S1x32 .f32) (x3 : Vec Ideal S4000x25 .f32)
    (x4 : Vec Ideal S4000x160 .f32) (r : Fin 4000) (o : Fin 32) :
    k0_pay9 (k0_pay3 x1) (k0_pay4 x2) (k0_pay6 x4) (k0_pay7 x0 x3 x4) (k0_pay8 x0 x3) (ix2 r o)
      = rowOut (fun k => x0 (ix2 (0 : Fin 1) k)) (fun c o => x1 (ix2 c o)) (fun o => x2 (ix2 (0 : Fin 1) o)) (fun k => x3 (ix2 r k))
          (fun q => x4 (ix2 r q)) 0 o := by
  unfold k0_pay9 k0_pay7 k0_pay8
  simp only [k0_pay2, k0_pay3, k0_pay4, k0_pay5, k0_pay6, shapeCast_self]
  refine (band_apply _ _ Ideal.ofBits_zero_f32 Ideal.ofBits_zero_f32 _ _ _ _ _ 0 1 2 3 4 0 32 64 96 128 _ _ _ _ _ _ _ _ _ _ _ _ _ _ _ _ _ _ _ r o
    (by decide) (by decide) (by decide) (by decide) (by decide) (by decide) (by decide) (by decide) (by decide) (by decide)).trans ?_
  unfold rowOut
  simp only [agg_eq_fold]
  rfl

theorem band1 (x0 : Vec Ideal S1x25 .f32) (x1 : Vec Ideal S32x32 .f32) (x2 : Vec Ideal S1x32 .f32) (x3 : Vec Ideal S4000x25 .f32)
    (x4 : Vec Ideal S4000x160 .f32) (r : Fin 4000) (o : Fin 32) :
    k0_pay11 (k0_pay3 x1) (k0_pay4 x2) (k0_pay10 (k0_pay2 x0) (k0_pay5 x3) (k0_pay6 x4)) (constant S4000x32 .f32 0x00000000#32) (ix2 r o)
      = rowOut (fun k => x0 (ix2 (0 : Fin 1) k)) (fun c o => x1 (ix2 c o)) (fun o => x2 (ix2 (0 : Fin 1) o)) (fun k => x3 (ix2 r k))
          (fun q => x4 (ix2 r q)) 1 o := by
  unfold k0_pay11 k0_pay10
  simp only [k0_pay2, k0_pay3, k0_pay4, k0_pay5, k0_pay6, shapeCast_self]
  refine (band_apply _ _ Ideal.ofBits_zero_f32 Ideal.ofBits_zero_f32 _ _ _ _ _ 5 6 7 8 9 0 32 64 96 128 _ _ _ _ _ _ _ _ _ _ _ _ _ _ _ _ _ _ _ r o
    (by decide) (by decide) (by decide) (by decide) (by decide) (by decide) (by decide) (by decide) (by decide) (by decide)).trans ?_
  unfold rowOut
  simp only [agg_eq_fold]
  rfl

theorem band2 (x0 : Vec Ideal S1x25 .f32) (x1 : Vec Ideal S32x32 .f32) (x2 : Vec Ideal S1x32 .f32) (x3 : Vec Ideal S4000x25 .f32)
    (x4 : Vec Ideal S4000x160 .f32) (r : Fin 4000) (o : Fin 32) :
    k0_pay12 (k0_pay2 x0) (k0_pay3 x1) (k0_pay4 x2) (k0_pay5 x3) (k0_pay6 x4) (ix2 r o)
      = rowOut (fun k => x0 (ix2 (0 : Fin 1) k)) (fun c o => x1 (ix2 c o)) (fun o => x2 (ix2 (0 : Fin 1) o)) (fun k => x3 (ix2 r k))
          (fun q => x4 (ix2 r q)) 2 o := by
  unfold k0_pay12
  simp only [k0_pay2, k0_pay3, k0_pay4, k0_pay5, k0_pay6, shapeCast_self]
  refine (band_apply _ _ Ideal.ofBits_zero_f32 Ideal.ofBits_zero_f32 _ _ _ _ _ 10 11 12 13 14 0 32 64 96 128 _ _ _ _ _ _ _ _ _ _ _ _ _ _ _ _ _ _ _ r o
    (by decide) (by decide) (by decide) (by decide) (by decide) (by decide) (by decide) (by decide) (by decide) (by decide)).trans ?_
  unfold rowOut
  simp only [agg_eq_fold]
  rfl

theorem band3 (x0 : Vec Ideal S1x25 .f32) (x1 : Vec Ideal S32x32 .f32) (x2 : Vec Ideal S1x32 .f32) (x3 : Vec Ideal S4000x25 .f32)
    (x4 : Vec Ideal S4000x160 .f32) (r : Fin 4000) (o : Fin 32) :
    k0_pay13 (k0_pay2 x0) (k0_pay3 x1) (k0_pay4 x2) (k0_pay5 x3) (k0_pay6 x4) (ix2 r o)
      = rowOut (fun k => x0 (ix2 (0 : Fin 1) k)) (fun c o => x1 (ix2 c o)) (fun o => x2 (ix2 (0 : Fin 1) o)) (fun k => x3 (ix2 r k))
          (fun q => x4 (ix2 r q)) 3 o := by
  unfold k0_pay13
  simp only [k0_pay2, k0_pay3, k0_pay4, k0_pay5, k0_pay6, shapeCast_self]
  refine (band_apply _ _ Ideal.ofBits_zero_f32 Ideal.ofBits_zero_f32 _ _ _ _ _ 15 16 17 18 19 0 32 64 96 128 _ _ _ _ _ _ _ _ _ _ _ _ _ _ _ _ _ _ _ r o
    (by decide) (by decide) (by decide) (by decide) (by decide) (by decide) (by decide) (by decide) (by decide) (by decide)).trans ?_
  unfold rowOut
  simp only [agg_eq_fold]
  rfl

theorem band4 (x0 : Vec Ideal S1x25 .f32) (x1 : Vec Ideal S32x32 .f32) (x2 : Vec Ideal S1x32 .f32) (x3 : Vec Ideal S4000x25 .f32)
    (x4 : Vec Ideal S4000x160 .f32) (r : Fin 4000) (o : Fin 32) :
    k0_pay1 (k0_pay2 x0) (k0_pay3 x1) (k0_pay4 x2) (k0_pay5 x3) (k0_pay6 x4) (k0_pay14 (F := Ideal)) (ix2 r o)
      = rowOut (fun k => x0 (ix2 (0 : Fin 1) k)) (fun c o => x1 (ix2 c o)) (fun o => x2 (ix2 (0 : Fin 1) o)) (fun k => x3 (ix2 r k))
          (fun q => x4 (ix2 r q)) 4 o := by
  unfold k0_pay1 k0_pay14
  simp only [k0_pay2, k0_pay3, k0_pay4, k0_pay5, k0_pay6, shapeCast_self]
  refine (band_apply _ _ Ideal.ofBits_zero_f32 Ideal.ofBits_zero_f32 _ _ _ _ _ 20 21 22 23 24 0 32 64 96 128 _ _ _ _ _ _ _ _ _ _ _ _ _ _ _ _ _ _ _ r o
    (by decide) (by decide) (by decide) (by decide) (by decide) (by decide) (by decide) (by decide) (by decide) (by decide)).trans ?_
  unfold rowOut
  simp only [agg_eq_fold]
  rfl

end Cert.KernelIdeal.Payload

end
-- ==== Proof.Block.lean ====
/-
  The 4000 × 160 block the body leaves in the output window's buffer is the row function laid over the point's blocks:
  its five stores are the five 32-column bands, band i at row r and column o being the row function at state i and
  channel o (`Payload.lean`), and column 32 i + o of the block lies in band i at local column o.
-/
import proofs.«171869_j35777077576087_1_alg».proof.Proof.Payload

noncomputable section

namespace Cert.KernelIdeal.Block

open Cert.KernelIdeal Cert.KernelIdeal.Gen Idealize.ShloMosaic Idealize.ShloMosaic.ValueIdx Cert.Spec Cert.KernelIdeal.Payload

theorem zero_off : (![0, 0] : Fin 2 → Nat) = fun _ => 0 := funext fun a => by fin_cases a <;> rfl

/-- What the body leaves, as one function of the block index. -/
theorem out_eq (x0 : Vec Ideal S1x25 .f32) (x1 : Vec Ideal S32x32 .f32) (x2 : Vec Ideal S1x32 .f32) (x3 : Vec Ideal S4000x25 .f32)
    (x4 : Vec Ideal S4000x160 .f32) : out0_5 x0 x1 x2 x3 x4 = rowsOut 4000 x0 x1 x2 x3 x4 := by
  funext y
  unfold out0_5
  simp only [View.ld_unit_zero (S := S1x25) zero_off, View.ld_unit_zero (S := S32x32) zero_off, View.ld_unit_zero (S := S1x32) zero_off,
    View.ld_unit_zero (S := S4000x25) zero_off, View.ld_unit_zero (S := S4000x160) zero_off]
  refine View.canon_apply_of_pieces (Val := Elt Ideal) (S := S4000x160) (e := .f32) (rowsOut 4000 x0 x1 x2 x3 x4) _ ?_ y (cover0_5 _ _ _ _ _ y)
  intro p hp x
  simp only [List.mem_cons, List.mem_nil_iff, or_false] at hp
  rcases hp with rfl | rfl | rfl | rfl | rfl
  · obtain ⟨r, o, rfl⟩ : ∃ (r : Fin 4000) (o : Fin 32), x = ix2 r o := ⟨x 0, x 1, eq_ix2 x⟩
    exact (band4 x0 x1 x2 x3 x4 r o).trans (rowsOut_at 4000 x0 x1 x2 x3 x4 _ 4 r o
      (by show 0 + 1 * r.val = r.val; omega) (by show 128 + 1 * o.val = 32 * 4 + o.val; omega)).symm
  · obtain ⟨r, o, rfl⟩ : ∃ (r : Fin 4000) (o : Fin 32), x = ix2 r o := ⟨x 0, x 1, eq_ix2 x⟩
    exact (band3 x0 x1 x2 x3 x4 r o).trans (rowsOut_at 4000 x0 x1 x2 x3 x4 _ 3 r o
      (by show 0 + 1 * r.val = r.val; omega) (by show 96 + 1 * o.val = 32 * 3 + o.val; omega)).symm
  · obtain ⟨r, o, rfl⟩ : ∃ (r : Fin 4000) (o : Fin 32), x = ix2 r o := ⟨x 0, x 1, eq_ix2 x⟩
    exact (band2 x0 x1 x2 x3 x4 r o).trans (rowsOut_at 4000 x0 x1 x2 x3 x4 _ 2 r o
      (by show 0 + 1 * r.val = r.val; omega) (by show 64 + 1 * o.val = 32 * 2 + o.val; omega)).symm
  · obtain ⟨r, o, rfl⟩ : ∃ (r : Fin 4000) (o : Fin 32), x = ix2 r o := ⟨x 0, x 1, eq_ix2 x⟩
    exact (band1 x0 x1 x2 x3 x4 r o).trans (rowsOut_at 4000 x0 x1 x2 x3 x4 _ 1 r o
      (by show 0 + 1 * r.val = r.val; omega) (by show 32 + 1 * o.val = 32 * 1 + o.val; omega)).symm
  · obtain ⟨r, o, rfl⟩ : ∃ (r : Fin 4000) (o : Fin 32), x = ix2 r o := ⟨x 0, x 1, eq_ix2 x⟩
    exact (band0 x0 x1 x2 x3 x4 r o).trans (rowsOut_at 4000 x0 x1 x2 x3 x4 _ 0 r o
      (by show 0 + 1 * r.val = r.val; omega) (by show 0 + 1 * o.val = 32 * 0 + o.val; omega)).symm

end Cert.KernelIdeal.Block

end
-- ==== Proof.Rows.lean ====
/-
  Two facts about the row function laid over rows (`Spec.rowsOut`), over plain arrays.
  (1) It is computed row by row, so rows 4000 T … 4000 T + 3999 of the million-row result are the 4000-row result of
      those rows of the region weights and features (the shared weights, layer matrix and bias being the same).
  (2) Fed the flattened arrays — A as one row of 25, Ap as rows of 25, X as rows of 160, the layer matrix transposed,
      the bias as one row — its entry (n, 32 i + o) is entry (n, i, o) of `Spec.out3` of the original arrays.
-/
import proofs.«171869_j35777077576087_1_alg».proof.Proof.Spec

noncomputable section

namespace Cert.Spec

open Idealize.ShloMosaic Idealize.ShloMosaic.ValueIdx

theorem rows_block (a a' : (⟨2, ![1, 25]⟩ : Shape).Idx → EReal) (w w' : (⟨2, ![32, 32]⟩ : Shape).Idx → EReal)
    (b b' : (⟨2, ![1, 32]⟩ : Shape).Idx → EReal)
    (ap : (⟨2, ![1000000, 25]⟩ : Shape).Idx → EReal) (x : (⟨2, ![1000000, 160]⟩ : Shape).Idx → EReal)
    (ap' : (⟨2, ![4000, 25]⟩ : Shape).Idx → EReal) (x' : (⟨2, ![4000, 160]⟩ : Shape).Idx → EReal) (T : ℕ) (hT : T < 250)
    (ha : a' = a) (hw : w' = w) (hb : b' = b)
    (hap : ∀ (r : Fin 4000) (k : Fin 25), ap' (ix2 r k) = ap (ix2 ⟨4000 * T + r.val, by have := r.isLt; omega⟩ k))
    (hx : ∀ (r : Fin 4000) (q : Fin 160), x' (ix2 r q) = x (ix2 ⟨4000 * T + r.val, by have := r.isLt; omega⟩ q))
    (y : (⟨2, ![4000, 160]⟩ : Shape).Idx) (y' : (⟨2, ![1000000, 160]⟩ : Shape).Idx)
    (h0 : (y' 0).val = 4000 * T + (y 0).val) (h1 : (y' 1).val = (y 1).val) :
    rowsOut 4000 a' w' b' ap' x' y = rowsOut 1000000 a w b ap x y' := by
  subst ha hw hb
  have hy1 : (y 1).val < 160 := (y 1).isLt
  have hy0 : (y 0).val < 4000 := (y 0).isLt
  rw [rowsOut_at 4000 a' w' b' ap' x' y ⟨(y 1).val / 32, by omega⟩ ⟨(y 0).val, hy0⟩ ⟨(y 1).val % 32, Nat.mod_lt _ (by decide)⟩ rfl
      (by show (y 1).val = 32 * ((y 1).val / 32) + (y 1).val % 32; omega),
    rowsOut_at 1000000 a' w' b' ap x y' ⟨(y 1).val / 32, by omega⟩ ⟨4000 * T + (y 0).val, by omega⟩
      ⟨(y 1).val % 32, Nat.mod_lt _ (by decide)⟩ h0 (by rw [h1]; show (y 1).val = 32 * ((y 1).val / 32) + (y 1).val % 32; omega)]
  simp only [hap, hx]

theorem rowsOut_flat (A : (⟨2, ![5, 5]⟩ : Shape).Idx → EReal) (Ap : (⟨3, ![1000000, 5, 5]⟩ : Shape).Idx → EReal)
    (X : (⟨3, ![1000000, 5, 32]⟩ : Shape).Idx → EReal) (W : (⟨2, ![32, 32]⟩ : Shape).Idx → EReal)
    (B : (⟨1, ![32]⟩ : Shape).Idx → EReal)
    (a : (⟨2, ![1, 25]⟩ : Shape).Idx → EReal) (w : (⟨2, ![32, 32]⟩ : Shape).Idx → EReal)
    (b : (⟨2, ![1, 32]⟩ : Shape).Idx → EReal)
    (ap : (⟨2, ![1000000, 25]⟩ : Shape).Idx → EReal) (x : (⟨2, ![1000000, 160]⟩ : Shape).Idx → EReal)
    (ha : ∀ i j : Fin 5, a (ix2 (0 : Fin 1) (k25 i j)) = A (ix2 i j))
    (hap : ∀ (n : Fin 1000000) (i j : Fin 5), ap (ix2 n (k25 i j)) = Ap (ix3 n i j))
    (hx : ∀ (n : Fin 1000000) (j : Fin 5) (c : Fin 32), x (ix2 n (k160 j c)) = X (ix3 n j c))
    (hw : ∀ c o : Fin 32, w (ix2 c o) = W (ix2 o c))
    (hb : ∀ o : Fin 32, b (ix2 (0 : Fin 1) o) = B (ix1 o))
    (n : Fin 1000000) (i : Fin 5) (o : Fin 32) (q : Fin 160) (hq : q.val = 32 * i.val + o.val) :
    rowsOut 1000000 a w b ap x (ix2 n q) = out3 A Ap X W B (ix3 n i o) :=
  (rowsOut_at 1000000 a w b ap x (ix2 n q) i n o rfl hq).trans
    (rowOut_eq_out3 A Ap X W B _ _ _ _ _ n i o ha (hap n) (hx n) hw hb)

end Cert.Spec

end
-- ==== Proof.Flat.lean ====
/-
  The kernel's output array after the whole grid. Point t of the 250 works on rows 4000 t … 4000 t + 3999: its region-weight
  and feature blocks are those rows of the two flattened arrays, its shared-weight, layer-matrix and bias blocks are the whole
  arrays, and it writes back the row function of its blocks (`Block.lean`) to the same rows of the output. The row function is
  computed row by row (`Rows.lean`), so what point t writes back is rows 4000 t … of the row function of the whole arrays;
  the 250 blocks tile the million rows, so the array ends holding that function everywhere.
-/
import proofs.«171869_j35777077576087_1_alg».proof.Proof.Block
import proofs.«171869_j35777077576087_1_alg».proof.Proof.Rows

noncomputable section

namespace Cert.KernelIdeal.Flat

open Cert.KernelIdeal Cert.KernelIdeal.Gen Idealize.ShloMosaic Idealize.ShloMosaic.TcCoe Idealize.ShloMosaic.ValueIdx Idealize.SL.Sem
open Idealize.ShloMosaic.Pipeline (Dat)
open Cert.Spec Cert.KernelIdeal.Block

variable (m : (ℓ : Loc nD τ sig) → Buf (Elt Ideal) ℓ) (ρ : Dev nD → PrngReg)

/-- The five arrays the region reads, as it finds them, at their literal types. -/
abbrev aArr (c : Dev nD) : Vec Ideal S1x25 .f32 := V m c main_v0
abbrev wArr (c : Dev nD) : Vec Ideal S32x32 .f32 := V m c main_v3
abbrev bArr (c : Dev nD) : Vec Ideal S1x32 .f32 := V m c main_v4
abbrev apArr (c : Dev nD) : Vec Ideal S1000000x25 .f32 := V m c main_v1
abbrev xArr (c : Dev nD) : Vec Ideal S1000000x160 .f32 := V m c main_v2

/-- Their blocks at point t. -/
abbrev aBlk (c : Dev nD) (t : Fin cfg0.N) : Vec Ideal S1x25 .f32 := iblk m c 0 t
abbrev wBlk (c : Dev nD) (t : Fin cfg0.N) : Vec Ideal S32x32 .f32 := iblk m c 1 t
abbrev bBlk (c : Dev nD) (t : Fin cfg0.N) : Vec Ideal S1x32 .f32 := iblk m c 2 t
abbrev apBlk (c : Dev nD) (t : Fin cfg0.N) : Vec Ideal S4000x25 .f32 := iblk m c 3 t
abbrev xBlk (c : Dev nD) (t : Fin cfg0.N) : Vec Ideal S4000x160 .f32 := iblk m c 4 t

/-- The block indices over the grid: the three small operands always at block (0, 0), the three row-blocked ones at (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem aBlk_eq (c : Dev nD) (t : Fin cfg0.N) : aBlk m c t = aArr m c := by
  obtain ⟨h0, h1, -⟩ := idx_facts t
  funext y
  show iblk m c 0 t y = V m c main_v0 y
  unfold iblk
  rw [View.read_apply]
  show V m c main_v0 _ = V m c main_v0 y
  refine congrArg (V m c main_v0) (funext fun a => Fin.ext ?_)
  match a with
  | ⟨0, _⟩ => show win0_0.index t (0 : Fin 2) * 1 + 1 * (y 0).val = (y 0).val; rw [h0]; omega
  | ⟨1, _⟩ => show win0_0.index t (1 : Fin 2) * 25 + 1 * (y 1).val = (y 1).val; rw [h1]; omega

theorem wBlk_eq (c : Dev nD) (t : Fin cfg0.N) : wBlk m c t = wArr m c := by
  obtain ⟨-, -, h0, h1, -⟩ := idx_facts t
  funext y
  show iblk m c 1 t y = V m c main_v3 y
  unfold iblk
  rw [View.read_apply]
  show V m c main_v3 _ = V m c main_v3 y
  refine congrArg (V m c main_v3) (funext fun a => Fin.ext ?_)
  match a with
  | ⟨0, _⟩ => show win0_1.index t (0 : Fin 2) * 32 + 1 * (y 0).val = (y 0).val; rw [h0]; omega
  | ⟨1, _⟩ => show win0_1.index t (1 : Fin 2) * 32 + 1 * (y 1).val = (y 1).val; rw [h1]; omega

theorem bBlk_eq (c : Dev nD) (t : Fin cfg0.N) : bBlk m c t = bArr m c := by
  obtain ⟨-, -, -, -, h0, h1, -⟩ := idx_facts t
  funext y
  show iblk m c 2 t y = V m c main_v4 y
  unfold iblk
  rw [View.read_apply]
  show V m c main_v4 _ = V m c main_v4 y
  refine congrArg (V m c main_v4) (funext fun a => Fin.ext ?_)
  match a with
  | ⟨0, _⟩ => show win0_2.index t (0 : Fin 2) * 1 + 1 * (y 0).val = (y 0).val; rw [h0]; omega
  | ⟨1, _⟩ => show win0_2.index t (1 : Fin 2) * 32 + 1 * (y 1).val = (y 1).val; rw [h1]; omega

/-- Row r of point t's region-weight block is row 4000 t + r of the array. -/
theorem apBlk_apply (c : Dev nD) (t : Fin cfg0.N) (ht : t.val < 250) (r : Fin 4000) (k : Fin 25) :
    apBlk m c t (ix2 r k) = apArr m c (ix2 ⟨4000 * t.val + r.val, by have := r.isLt; omega⟩ k) := by
  obtain ⟨-, -, -, -, -, -, h0, h1, -⟩ := idx_facts t
  show iblk m c 3 t (ix2 r k) = V m c main_v1 _
  unfold iblk
  rw [View.read_apply]
  show V m c main_v1 _ = V m c main_v1 _
  refine congrArg (V m c main_v1) (funext fun a => Fin.ext ?_)
  match a with
  | ⟨0, _⟩ => show win0_3.index t (0 : Fin 2) * 4000 + 1 * r.val = 4000 * t.val + r.val; rw [h0]; omega
  | ⟨1, _⟩ => show win0_3.index t (1 : Fin 2) * 25 + 1 * k.val = k.val; rw [h1]; omega

/-- Row r of point t's feature block is row 4000 t + r of the array. -/
theorem xBlk_apply (c : Dev nD) (t : Fin cfg0.N) (ht : t.val < 250) (r : Fin 4000) (q : Fin 160) :
    xBlk m c t (ix2 r q) = xArr m c (ix2 ⟨4000 * t.val + r.val, by have := r.isLt; omega⟩ q) := by
  obtain ⟨-, -, -, -, -, -, -, -, h0, h1, -⟩ := idx_facts t
  show iblk m c 4 t (ix2 r q) = V m c main_v2 _
  unfold iblk
  rw [View.read_apply]
  show V m c main_v2 _ = V m c main_v2 _
  refine congrArg (V m c main_v2) (funext fun a => Fin.ext ?_)
  match a with
  | ⟨0, _⟩ => show win0_4.index t (0 : Fin 2) * 4000 + 1 * r.val = 4000 * t.val + r.val; rw [h0]; omega
  | ⟨1, _⟩ => show win0_4.index t (1 : Fin 2) * 160 + 1 * q.val = q.val; rw [h1]; omega

/-- The flattened result: the row function over the five arrays as the region finds them. -/
abbrev flatOut (c : Dev nD) : Vec Ideal S1000000x160 .f32 :=
  rowsOut 1000000 (aArr m c) (wArr m c) (bArr m c) (apArr m c) (xArr m c)

/-- What point t writes back is its block of `flatOut`. -/
theorem flushed_eq (c : Dev nD) (t : Fin cfg0.N) :
    (dats m 0 c).flushed 5 t = ((cfg0.win 5).blk t).view.read (Elt Ideal) (flatOut m c) := by
  have ht : t.val < 250 := lt_of_lt_of_eq t.isLt N_0
  obtain ⟨-, -, -, -, -, -, -, -, -, -, h0, h1⟩ := idx_facts t
  show (cfg0.win 5).cut (grid0.coords t) ((dats m 0 c).after 5 t) = _
  rw [after0_5, out_eq]
  funext y
  rw [View.read_apply]
  show rowsOut 4000 (aBlk m c t) (wBlk m c t) (bBlk m c t) (apBlk m c t) (xBlk m c t) y = _
  refine rows_block _ _ _ _ _ _ _ _ _ _ t.val ht (aBlk_eq m c t) (wBlk_eq m c t) (bBlk_eq m c t) (apBlk_apply m c t ht)
    (xBlk_apply m c t ht) y _ ?_ ?_
  · show win0_5.index t (0 : Fin 2) * 4000 + 1 * (y 0).val = 4000 * t.val + (y 0).val; rw [h0]; omega
  · show win0_5.index t (1 : Fin 2) * 160 + 1 * (y 1).val = (y 1).val; rw [h1]; omega

/-- An index of the output array is in point t's block iff each coordinate is in the block's range. -/
theorem mem_blk (t : Fin cfg0.N) (i : S1000000x160.Idx) :
    i ∈ ((cfg0.win 5).blk t).view.set ↔ ∀ a : Fin 2, win0_5.index t a * S4000x160.size a ≤ (i a).val
      ∧ (i a).val < win0_5.index t a * S4000x160.size a + S4000x160.size a := by
  show i ∈ ((View.whole main_v5).slice (win0_5.rect t)).set ↔ _
  rw [View.set_slice_whole, Rect.mem_set_unit]
  exact Iff.rfl

/-- The output array after the run. -/
theorem final (c : Dev nD) : (dats m 0 c).arrAt 5 cfg0.N = flatOut m c :=
  (dats m 0 c).arrAt_eq_of_cover 5 (flatOut m c) (fun t _ => flushed_eq m c t) fun i => by
    have hi0 : (i 0).val < 1000000 := (i 0).isLt
    have hi1 : (i 1).val < 160 := (i 1).isLt
    have hN : cfg0.N = 250 := N_0
    have htl : (i 0).val / 4000 < cfg0.N := by rw [hN]; omega
    obtain ⟨-, -, -, -, -, -, -, -, -, -, h0, h1⟩ := idx_facts ⟨(i 0).val / 4000, htl⟩
    refine ⟨⟨(i 0).val / 4000, htl⟩, flush0_5 _, ?_⟩
    rw [mem_blk]
    intro a
    match a with
    | ⟨0, _⟩ =>
      show win0_5.index ⟨(i 0).val / 4000, htl⟩ (0 : Fin 2) * 4000 ≤ (i 0).val
        ∧ (i 0).val < win0_5.index ⟨(i 0).val / 4000, htl⟩ (0 : Fin 2) * 4000 + 4000
      rw [h0]; show (i 0).val / 4000 * 4000 ≤ (i 0).val ∧ (i 0).val < (i 0).val / 4000 * 4000 + 4000; omega
    | ⟨1, _⟩ =>
      show win0_5.index ⟨(i 0).val / 4000, htl⟩ (1 : Fin 2) * 160 ≤ (i 1).val
        ∧ (i 1).val < win0_5.index ⟨(i 0).val / 4000, htl⟩ (1 : Fin 2) * 160 + 160
      rw [h1]; omega

end Cert.KernelIdeal.Flat

end
-- ==== Proof.KernelRun.lean ====
/-
  The idealized kernel's run, read. Before the region the host flattens the arguments — A to one row of 25, Ap to rows of
  25, X to rows of 160, the bias to one row — and transposes the layer matrix; after it, it reshapes the million × 160
  output to million × 5 × 32. Row-major order keeps positions, so entry (n, i, o) of the result is entry (n, 32 i + o) of
  the output array, which is the row function of the flattened arguments there (`Flat.lean`): `Spec.out3` of the
  original arguments at (n, i, o) (`Rows.lean`).
-/
import proofs.«171869_j35777077576087_1_alg».proof.Proof.Flat
import Idealize.ShloMosaic.Lib.StableHlo.Run
import Idealize.ShloMosaic.Lib.ValueLayout

noncomputable section

namespace Cert.KernelIdeal.Read

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)
open Cert.Spec Cert.KernelIdeal.Flat

variable (m : (ℓ : Loc nD τ sig) → Buf (Elt Ideal) ℓ) (ρ : Dev nD → PrngReg)

/-! ## The arrays the region finds -/

theorem aArr_eq (c : Dev nD) : aArr m c = shapeCast S1x25 (m ((c : Thread nD τ).loc main_arg0)) shapeCasts_S5x5_S1x25 := by
  show StableHlo.after hostOps0 (fun b => m (c, b)) (Proc.devRef .tc main_v0) = _
  after_results <;> rfl

theorem apArr_eq (c : Dev nD) :
    apArr m c = shapeCast S1000000x25 (m ((c : Thread nD τ).loc main_arg1)) shapeCasts_S1000000x5x5_S1000000x25 := by
  show StableHlo.after hostOps0 (fun b => m (c, b)) (Proc.devRef .tc main_v1) = _
  after_results <;> rfl

theorem xArr_eq (c : Dev nD) :
    xArr m c = shapeCast S1000000x160 (m ((c : Thread nD τ).loc main_arg2)) shapeCasts_S1000000x5x32_S1000000x160 := by
  show StableHlo.after hostOps0 (fun b => m (c, b)) (Proc.devRef .tc main_v2) = _
  after_results <;> rfl

theorem wArr_eq (c : Dev nD) :
    wArr m c = transpose S32x32 [1, 0] (m ((c : Thread nD τ).loc main_arg3)) transposes_S32x32_S32x32_1_0 := by
  show StableHlo.after hostOps0 (fun b => m (c, b)) (Proc.devRef .tc main_v3) = _
  after_results <;> rfl

theorem bArr_eq (c : Dev nD) : bArr m c = shapeCast S1x32 (m ((c : Thread nD τ).loc main_arg4)) shapeCasts_S32_S1x32 := by
  show StableHlo.after hostOps0 (fun b => m (c, b)) (Proc.devRef .tc main_v4) = _
  after_results <;> rfl

/-! ## The reshape after the region -/

/-- The program's result buffer after the run: the output array reshaped. -/
theorem tail_eq (c : Dev nD) :
    Pipeline.afterTail₀ cfgs (dats m) 0 (V0 m) [hostOps1] c main_v6
      = shapeCast S1000000x5x32 ((dats m 0 c).arrAt 5 cfg0.N) shapeCasts_S1000000x160_S1000000x5x32 := by
  have hw : Pipeline.withArrays (cfgs 0).spec c (V0 m c) (fun w => (dats m 0 c).arrAt w (cfgs 0).N) (Proc.devRef .tc main_v5)
      = (dats m 0 c).arrAt 5 cfg0.N := Pipeline.withArrays_arr spec0 launch0.win.arr_inj c _ _ 5
  unfold Pipeline.afterTail₀
  show StableHlo.after hostOps1 _ (Proc.devRef .tc main_v6) = _
  after_results
  exact congrArg (fun A : Vec Ideal S1000000x160 .f32 => shapeCast S1000000x5x32 A shapeCasts_S1000000x160_S1000000x5x32) hw

/-- The reshaped row function of the flattened arguments is `out3` of the arguments. -/
theorem result_eq (c : Dev nD) :
    shapeCast S1000000x5x32 (flatOut m c) shapeCasts_S1000000x160_S1000000x5x32
      = out3 (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨n, s, o, rfl⟩ : ∃ (n : Fin 1000000) (s : Fin 5) (o : Fin 32), i = ix3 n s o := ⟨i 0, i 1, i 2, eq_ix3 i⟩
  have hq : 32 * s.val + o.val < 160 := by have := s.isLt; have := o.isLt; omega
  rw [shapeCast_apply _ _ (ix3 n s o) (ix2 n (⟨32 * s.val + o.val, hq⟩ : Fin 160)) (by
    rw [Shape.rowMajor_val_two, Shape.rowMajor_val_three]
    show n.val * 160 + (32 * s.val + o.val) = (n.val * 5 + s.val) * 32 + o.val; omega)]
  refine rowsOut_flat _ _ _ _ _ _ _ _ _ _ ?_ ?_ ?_ ?_ ?_ n s o _ rfl
  · intro i j
    rw [aArr_eq]
    exact shapeCast_apply _ _ (ix2 (0 : Fin 1) (k25 i j)) (ix2 i j) (by
      rw [Shape.rowMajor_val_two, Shape.rowMajor_val_two]
      show i.val * 5 + j.val = 0 * 25 + (5 * i.val + j.val); omega)
  · intro n i j
    rw [apArr_eq]
    exact shapeCast_apply _ _ (ix2 n (k25 i j)) (ix3 n i j) (by
      rw [Shape.rowMajor_val_two, Shape.rowMajor_val_three]
      show (n.val * 5 + i.val) * 5 + j.val = n.val * 25 + (5 * i.val + j.val); omega)
  · intro n j c
    rw [xArr_eq]
    exact shapeCast_apply _ _ (ix2 n (k160 j c)) (ix3 n j c) (by
      rw [Shape.rowMajor_val_two, Shape.rowMajor_val_three]
      show (n.val * 5 + j.val) * 32 + c.val = n.val * 160 + (32 * j.val + c.val); omega)
  · intro c o
    rw [wArr_eq]
    exact transpose_ix2_apply _ _ c o
  · intro o
    rw [bArr_eq]
    exact shapeCast_apply _ _ (ix2 (0 : Fin 1) o) (ix1 o) (by
      rw [Shape.rowMajor_val_two, Shape.rowMajor_val_one]
      show o.val = 0 * 32 + o.val; omega)

/-! ## The run -/

/-- Every weakly fair execution of the idealized kernel terminates with its result at `out3` of the arguments and the
    arguments unchanged. -/
theorem run : θ_run defs (onTc (τ := τ) (main (F := Ideal))) ⟨m, fun _ => 0, ρ⟩ (fun r => ∀ c : Dev nD,
      r.2.mem ((c.tc : Thread nD τ).loc main_v6)
        = out3 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans
        ((tail_eq m c).trans ((congrArg (fun A : Vec Ideal S1000000x160 .f32 =>
          shapeCast S1000000x5x32 A shapeCasts_S1000000x160_S1000000x5x32) (final m c)).trans (result_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Read

end
-- ==== Proof.RefSide.lean ====
/-
  The reference, entry by entry: the shared weights broadcast over the regions and multiplied into the region weights, the
  batched product with the features over the source state j, the product with the layer matrix over the input channel c
  (the matrix contracted on its second axis), the bias broadcast and added, the maximum with zero. At the ideal values the
  two products are plain finite sums, so entry (n, i, o) is `Spec.out3` there.
-/
import proofs.«171869_j35777077576087_1_alg».proof.Proof.Gen.ReferenceIdeal.Read
import proofs.«171869_j35777077576087_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec

/-- The reference's last stage is `out3` of its five arguments. -/
theorem ref_eq (x0 : (⟨S5x5, .f32⟩ : BufTy).Contents (Elt Ideal)) (x1 : (⟨S1000000x5x5, .f32⟩ : BufTy).Contents (Elt Ideal))
    (x2 : (⟨S1000000x5x32, .f32⟩ : BufTy).Contents (Elt Ideal)) (x3 : (⟨S32x32, .f32⟩ : BufTy).Contents (Elt Ideal))
    (x4 : (⟨S32, .f32⟩ : BufTy).Contents (Elt Ideal)) :
    val_main_v8 (F := Ideal) x0 x1 x2 x3 x4 = out3 x0 x1 x2 x3 x4 := by
  funext i
  obtain ⟨n, s, o, rfl⟩ : ∃ (n : Fin 1000000) (s : Fin 5) (o : Fin 32), i = ix3 n s o := ⟨i 0, i 1, i 2, eq_ix3 i⟩
  have e0 : ∀ j : Fin 5, idx_main_v0 (idx_main_v1 (ix3 n s j)) = ix2 s j :=
    fun j => funext fun a => Fin.ext (by match a with | ⟨0, _⟩ => rfl | ⟨1, _⟩ => rfl)
  have e1 : ∀ (k : Fin 32) (j : Fin 5), lidx_main_v3 (lidx_main_v4 (ix3 n s o) k) j = ix3 n s j :=
    fun k j => funext fun a => Fin.ext (by match a with | ⟨0, _⟩ => rfl | ⟨1, _⟩ => rfl | ⟨2, _⟩ => rfl)
  have e2 : ∀ (k : Fin 32) (j : Fin 5), ridx_main_v3 (lidx_main_v4 (ix3 n s o) k) j = ix3 n j k :=
    fun k j => funext fun a => Fin.ext (by match a with | ⟨0, _⟩ => rfl | ⟨1, _⟩ => rfl | ⟨2, _⟩ => rfl)
  have e3 : ∀ k : Fin 32, ridx_main_v4 (ix3 n s o) k = ix2 o k :=
    fun k => funext fun a => Fin.ext (by match a with | ⟨0, _⟩ => rfl | ⟨1, _⟩ => rfl)
  have e4 : idx_main_v5 (idx_main_v6 (ix3 n s o)) = ix1 o :=
    funext fun a => Fin.ext (by match a with | ⟨0, _⟩ => rfl)
  rw [val_main_v8_apply, val_main_v7_apply, val_main_v4_apply, val_main_v6_apply, val_main_v5_apply, val_main_call0_v0_apply,
    val_main_call0_cst_apply]
  simp only [val_main_v3_apply]
  unfold val_main_v2
  simp only [mulf_apply, val_main_v1_apply, val_main_v0_apply]
  simp only [e0, e1, e2, e3, e4, Ideal.maximumf_def, Ideal.addf_def, Ideal.ofBits_def, Ideal.ofBits_zero_f32]
  rfl

end Cert.ReferenceIdeal.RefValue

end
-- ==== Proof.lean ====
/-
  A per-region weighted aggregation of five state feature vectors, a 32 × 32 linear layer and a rectifier, over a million
  regions:  out[n, i, o] = max (Σ_c (Σ_j (A[i, j] · Ap[n, i, j]) · X[n, j, c]) · W[o, c] + B[o]) 0.

  The kernel works on flattened arrays, 4000 regions per grid point: it forms the five aggregated vectors of a row as
  five-term sums accumulated from zero, multiplies each into the transposed layer matrix (narrowed to bf16 first, which at
  the ideal values changes nothing), adds the bias and takes the maximum with zero. The reference states the same with two
  contractions. Over the extended reals the two agree entry by entry: the sums are finite sums in a commutative monoid, a
  leading zero is dropped, and the two weights are commuted — no distributivity or cancellation, so the finiteness of the
  inputs is never used.

  The word-level kernel and its idealization run and leave their arguments unchanged by their generated frames, the
  reference by its generated run. The idealization rewrote no operation, so there is nothing to preserve.
  Modules: Spec (the row function and the result as a function of the arguments), Payload and Block (what the body
  stores is the row function of the point's blocks), Rows and Flat (the output array after the grid), KernelRun (the
  reshapes around the region; the kernel's run read), RefSide (the reference's result is the same function).
-/
import proofs.«171869_j35777077576087_1_alg».proof.Defs
import proofs.«171869_j35777077576087_1_alg».proof.Proof.Gen.Kernel
import proofs.«171869_j35777077576087_1_alg».proof.Proof.Gen.Kernel.Frame
import proofs.«171869_j35777077576087_1_alg».proof.Proof.Gen.KernelIdeal
import proofs.«171869_j35777077576087_1_alg».proof.Proof.Gen.KernelIdeal.Frame
import proofs.«171869_j35777077576087_1_alg».proof.Proof.Gen.ReferenceIdeal
import proofs.«171869_j35777077576087_1_alg».proof.Proof.Gen.ReferenceIdeal.Run
import proofs.«171869_j35777077576087_1_alg».proof.Proof.Gen.ReferenceIdeal.Read
import proofs.«171869_j35777077576087_1_alg».proof.Proof.Gen.Pre_finite_inputs
import proofs.«171869_j35777077576087_1_alg».proof.Proof.KernelRun
import proofs.«171869_j35777077576087_1_alg».proof.Proof.RefSide

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at `Spec.out3` of the arguments, which agree. -/
theorem algebraic : Cert.algebraic_KernelIdeal_ReferenceIdeal := by
  intro m ρ m' ρ' _ hagree
  refine ⟨_, Cert.KernelIdeal.Read.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
